-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S16 .f32) (main_arg6 : FVec F S16x7 .f32) (main_arg7 : FVec F S7 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x7 .f32 := Host.absf main_arg6
  let main_cst_8 : FVec F S_ .f32 := constant S_ .f32 0x7F800000#32
  let main_v25 : FVec F S16x7 .f32 := broadcastInDim S16x7 ![] bcast_S_S16x7 main_cst_8
  let main_v26 : IVec S16x7 1 := cmpf .olt main_v24 main_v25
  let main_c_9 : IVec S_ 1 := constantI S_ 1 1#1
  let main_v27 : IVec S_ 1 := (fun x v => Host.reduce IntOp.andi x v reducesTo_S16x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x16 .f32) (main_arg3 : FVec F S16 .f32) (main_arg4 : FVec F S16x16 .f32) (main_arg5 : FVec F S16 .f32) (main_arg6 : FVec F S16x7 .f32) (main_arg7 : FVec F S7 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x256 : Shape := ⟨2, ![5000, 256]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S1x7 : Shape := ⟨2, ![1, 7]⟩
abbrev S5000 : Shape := ⟨1, ![5000]⟩
abbrev S5000x1 : Shape := ⟨2, ![5000, 1]⟩

abbrev nBuf : Space → Nat
  | .hbm => 94
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x7, .f32⟩
  | .hbm, ⟨7, _⟩ => ⟨S7, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x1, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000x16, .f32⟩
  | .hbm, ⟨69, _⟩ => ⟨S100000x16, .f32⟩
  | .hbm, ⟨70, _⟩ => ⟨S100000x16, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x16, .f32⟩
  | .hbm, ⟨80, _⟩ => ⟨S3300000x1, .f32⟩
  | .hbm, ⟨81, _⟩ => ⟨S3300000x16, .f32⟩
  | .hbm, ⟨82, _⟩ => ⟨S3300000x16, .f32⟩
  | .hbm, ⟨83, _⟩ => ⟨S_, .f32⟩
  | .hbm, ⟨84, _⟩ => ⟨S100000x16, .f32⟩
  | .hbm, ⟨85, _⟩ => ⟨S3300000x1, .i32⟩
  | .hbm, ⟨86, _⟩ => ⟨S100000x16, .f32⟩
  | .hbm, ⟨87, _⟩ => ⟨S1x16, .f32⟩
  | .hbm, ⟨88, _⟩ => ⟨S100000x16, .f32⟩
  | .hbm, ⟨89, _⟩ => ⟨S100000x16, .f32⟩
  | .hbm, ⟨90, _⟩ => ⟨S_, .f32⟩
  | .hbm, ⟨91, _⟩ => ⟨S100000x16, .f32⟩
  | .hbm, ⟨92, _⟩ => ⟨S100000x16, .f32⟩
  | .hbm, ⟨93, _⟩ => ⟨S100000x7, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x7, .f32⟩
  | .local _ .vmem, ⟨13, _⟩ => ⟨S7, .f32⟩
  | .local _ .vmem, ⟨14, _⟩ => ⟨S5000x7, .f32⟩
  | .local _ .vmem, ⟨15, _⟩ => ⟨S5000x7, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  inb_S16x7_S16x7_0_0 : ∀ a, (![0, 0] : Fin 2 → Nat) a + S16x7.size a ≤ S16x7.size a
  h_S16x7 : 0 < S16x7.numel
  inb_S7_S7_0 : ∀ a, (![0] : Fin 1 → Nat) a + S7.size a ≤ S7.size a
  h_S7 : 0 < S7.numel
  shapeCasts_S7_S1x7 : S7.ShapeCasts S1x7
  broadcasts_S1x7_S5000x7 : S1x7.Broadcasts S5000x7
  reduces_S5000x7_S5000 : S5000x7.Reduces [1] S5000
  shapeCasts_S5000_S5000x1 : S5000.ShapeCasts S5000x1
  broadcasts_S5000x1_S5000x7 : S5000x1.Broadcasts S5000x7
  inb_S5000x7_S5000x7_0_0 : ∀ a, (![0, 0] : Fin 2 → Nat) a + S5000x7.size a ≤ S5000x7.size a
  h_S5000x7 : 0 < S5000x7.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x16_S5000x16_1_0_0_1_n_n_wf : DotDims.WF S5000x256 S256x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x16_S5000x16_1_0_0_1_n_n_wf : DotDims.WF S5000x16 S16x16 S5000x16 [1] [0] [0] [1] [] []
  dot_S5000x16_S16x7_S5000x7_1_0_0_1_n_n_wf : DotDims.WF S5000x16 S16x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S7.size a ≤ S7.size a
  hwx2_2 : ∀ i : grid2.Coords, EltTy.bits .f32 = 32 ∨ (Rect.block (s := S7) S7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x7.size a ≤ S100000x7.size a
  hwx2_3 : ∀ i : grid2.Coords, EltTy.bits .f32 = 32 ∨ (Rect.block (s := S100000x7) S5000x7.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S5000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S1x7 : Shape := ⟨2, ![1, 7]⟩
abbrev S100000x1 : Shape := ⟨2, ![100000, 1]⟩

abbrev nBuf : Space → Nat
  | .hbm => 147
  | .vmem => 0
  | .smem => 0
  | _ => 0

abbrev hbmTy0_0 (i : Nat) : BufTy := match i % 128 with
  | 0 => ⟨S100000x256, .f32⟩
  | 1 => ⟨S2x3200000, .i32⟩
  | 2 => ⟨S256x16, .f32⟩
  | 3 => ⟨S16, .f32⟩
  | 4 => ⟨S16x16, .f32⟩
  | 5 => ⟨S16, .f32⟩
  | 6 => ⟨S16x7, .f32⟩
  | 7 => ⟨S7, .f32⟩
  | 8 => ⟨S1x3200000, .i32⟩
  | 9 => ⟨S3200000, .i32⟩
  | 10 => ⟨S1x3200000, .i32⟩
  | 11 => ⟨S3200000, .i32⟩
  | 12 => ⟨S100000x16, .f32⟩
  | 13 => ⟨S100000, .i32⟩
  | 14 => ⟨S3300000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000x16, .f32⟩
  | 57 => ⟨S3300000x1, .f32⟩
  | 58 => ⟨S3300000x16, .f32⟩
  | 59 => ⟨S3300000x16, .f32⟩
  | 60 => ⟨S_, .f32⟩
  | 61 => ⟨S100000x16, .f32⟩
  | 62 => ⟨S3300000x1, .i32⟩
  | 63 => ⟨S100000x16, .f32⟩
  | 64 => ⟨S1x16, .f32⟩
  | 65 => ⟨S100000x16, .f32⟩
  | 66 => ⟨S100000x16, .f32⟩
  | 67 => ⟨S_, .f32⟩
  | 68 => ⟨S100000x16, .f32⟩
  | 69 => ⟨S100000x16, .f32⟩
  | 70 => ⟨S100000x16, .f32⟩
  | 71 => ⟨S100000, .i32⟩
  | 72 => ⟨S3300000, .i32⟩
  | 73 => ⟨S3300000, .i32⟩
  | 74 => ⟨S_, .f32⟩
  | 75 => ⟨S3300000, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x16, .f32⟩
  | 115 => ⟨S3300000x1, .f32⟩
  | 116 => ⟨S3300000x16, .f32⟩
  | 117 => ⟨S3300000x16, .f32⟩
  | 118 => ⟨S_, .f32⟩
  | 119 => ⟨S100000x16, .f32⟩
  | 120 => ⟨S3300000x1, .i32⟩
  | 121 => ⟨S100000x16, .f32⟩
  | 122 => ⟨S1x16, .f32⟩
  | 123 => ⟨S100000x16, .f32⟩
  | 124 => ⟨S100000x16, .f32⟩
  | 125 => ⟨S_, .f32⟩
  | 126 => ⟨S100000x16, .f32⟩
  | 127 => ⟨S100000x16, .f32⟩
  | _ => ⟨S100000x256, .f32⟩

abbrev hbmTy0_1 (i : Nat) : BufTy := match i % 128 with
  | 0 => ⟨S100000x7, .f32⟩
  | 1 => ⟨S1x7, .f32⟩
  | 2 => ⟨S100000x7, .f32⟩
  | 3 => ⟨S100000x7, .f32⟩
  | 4 => ⟨S_, .f32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x7, .f32⟩
  | 11 => ⟨S100000x7, .f32⟩
  | 12 => ⟨S100000x7, .f32⟩
  | 13 => ⟨S_, .f32⟩
  | 14 => ⟨S100000, .f32⟩
  | 15 => ⟨S100000x1, .f32⟩
  | 16 => ⟨S100000x1, .f32⟩
  | 17 => ⟨S100000x7, .f32⟩
  | 18 => ⟨S100000x7, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call3_cst : Ref sig .tc := ⟨.hbm, 125, rfl⟩
abbrev main_call3_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_call4_cst : Ref sig .tc := ⟨.hbm, 132, rfl⟩
abbrev main_call4_v0 : Ref sig .tc := ⟨.hbm, 133, rfl⟩
abbrev main_call4_cst_0 : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_v6 : Ref sig .tc := ⟨.hbm, 140, rfl⟩
abbrev main_call4_cst_1 : Ref sig .tc := ⟨.hbm, 141, rfl⟩
abbrev main_call4_v7 : Ref sig .tc := ⟨.hbm, 142, rfl⟩
abbrev main_call4_v8 : Ref sig .tc := ⟨.hbm, 143, rfl⟩
abbrev main_call4_v9 : Ref sig .tc := ⟨.hbm, 144, rfl⟩
abbrev main_call4_v10 : Ref sig .tc := ⟨.hbm, 145, rfl⟩
abbrev main_v98 : Ref sig .tc := ⟨.hbm, 146, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x256_S256x16_S100000x16_1_0_0_1_n_n_wf : DotDims.WF S100000x256 S256x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x7_S100000x7_1_0_0_1_n_n_wf : DotDims.WF S100000x16 S16x7 S100000x7 [1] [0] [0] [1] [] []

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf

class Facts : Prop extends Facts₀ where

variable [Facts]
-- ==== Proof.Layer.lean ====
/-
  One graph-convolution layer after its projection, as one function of the projected rows, the edge vectors, the
  edges' normalisation and the bias. Both programs spell the layer with these host operations, and neither opens it.
-/
import proofs.«148033_j91061896609816_1_alg».proof.Proof.Gen.KernelIdeal
import Idealize.ShloMosaic.PureOps

noncomputable section

open Idealize.ShloMosaic

namespace Cert.KernelIdeal.Host

open Cert.KernelIdeal Cert.KernelIdeal.Gen

variable {F : FTy → Type} [FloatOps F]

/-- A vector of edge endpoints as gather start indices: a negative entry counts from the end (n is added to it),
    and the vector becomes a column. -/
def wrapIdx (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- Every edge (s, d) carries row s of xw, scaled by the edge's normalisation, to row d; the rows are summed per
    target, the bias is added and the result is clamped below at 0. -/
def layer (xw : (⟨S100000x16, .f32⟩ : BufTy).Contents (Elt F)) (s d : (⟨S3300000, .i32⟩ : BufTy).Contents (Elt F))
    (nrm : (⟨S3300000, .f32⟩ : BufTy).Contents (Elt F)) (b : (⟨S16, .f32⟩ : BufTy).Contents (Elt F)) : (⟨S100000x16, .f32⟩ : BufTy).Contents (Elt F) :=
  maximumf
    (addf
      (Host.scatterAdd scatter_S100000x16_S3300000x1_S3300000x16_1_0_0_1
        (broadcastInDim S100000x16 ![] bcast_S_S100000x16 (constant S_ .f32 0x00000000#32))
        (broadcastInDim S3300000x1 ![0] bcast_S3300000_S3300000x1_0 d)
        (mulf (Host.gather gather_S100000x16_S3300000x1_S3300000x16_1_0_n_n_0_1_116 xw (wrapIdx s))
          (broadcastInDim S3300000x16 ![0, 1] bcast_S3300000x1_S3300000x16_0_1 (broadcastInDim S3300000x1 ![0] bcast_S3300000_S3300000x1_0 nrm))))
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

end Cert.KernelIdeal.Host

end
-- ==== Proof.HostChain.lean ====
import proofs.«148033_j91061896609816_1_alg».proof.Proof.Gen.KernelIdeal.Frame
import proofs.«148033_j91061896609816_1_alg».proof.Proof.RefRead
import proofs.«148033_j91061896609816_1_alg».proof.Proof.Layer
import Idealize.ShloMosaic.Lib.StableHlo.Run

set_option maxRecDepth 16384

noncomputable section

open Idealize.ShloMosaic Idealize.ShloMosaic.TcCoe Idealize.SL.Sem Idealize.ShloMosaic.StableHlo

/-!
  The host program between the launches, read at the buffers the launches and the result depend on. The three
  launches are joined by the same gather / scale / scatter-add / bias / clamp chain the reference applies, over edge
  vectors and a normalisation computed once before the first launch; the arguments are written by nothing.
-/

namespace Cert.KernelIdeal.Host

open Cert.KernelIdeal Cert.KernelIdeal.Gen

variable {F : FTy → Type} [FloatOps F]

variable (m : (ℓ : Loc nD τ sig) → Buf (Elt F) ℓ) (ρ : Dev nD → PrngReg)

/-! ## Before the first launch -/

/-- The edge sources with the self-loops appended, as the reference spells them. -/
theorem src_eq (c : Dev nD) : W3 m ρ c (Proc.devRef .tc main_v5) = Cert.ReferenceIdeal.ReadP.val_main_v6 (F := F) (m ((c.tc : Thread nD τ).loc main_arg1)) := by
  show StableHlo.after hostOps0_2 (StableHlo.after hostOps0_1 (StableHlo.after hostOps0 (W0 m ρ c))) (Proc.devRef .tc main_v5) = _
  after_results_simp <;> rfl
/-- The edge targets with the self-loops appended. -/
theorem dst_eq (c : Dev nD) : W3 m ρ c (Proc.devRef .tc main_v6) = Cert.ReferenceIdeal.ReadP.val_main_v7 (F := F) (m ((c.tc : Thread nD τ).loc main_arg1)) := by
  show StableHlo.after hostOps0_2 (StableHlo.after hostOps0_1 (StableHlo.after hostOps0 (W0 m ρ c))) (Proc.devRef .tc main_v6) = _
  after_results_simp <;> rfl
set_option maxHeartbeats 2000000 in
/-- The edges' normalisation  d(s)^(-1/2) · d(t)^(-1/2), d the in-degree counted with the self-loop. -/
theorem norm_eq (c : Dev nD) : W3 m ρ c (Proc.devRef .tc main_v30) = Cert.ReferenceIdeal.ReadP.val_main_v31 (F := F) (m ((c.tc : Thread nD τ).loc main_arg1)) := by
  show StableHlo.after hostOps0_2 (StableHlo.after hostOps0_1 (StableHlo.after hostOps0 (W0 m ρ c))) (Proc.devRef .tc main_v30) = _
  after_results_simp <;> rfl

/-- No host operation before the first launch writes an argument. -/
theorem W3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp <;> rfl
theorem W3_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp <;> rfl
theorem W3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp <;> rfl
theorem W3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp <;> rfl
theorem W3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp <;> rfl
theorem W3_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_simp <;> rfl
theorem W3_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results_simp <;> rfl

/-! ## Between the first launch and the second -/

set_option maxHeartbeats 2000000 in
/-- The first layer applied to the first launch's result. -/
theorem layer1 (c : Dev nD) :
    W6 m ρ c (Proc.devRef .tc main_v48)
      = layer (W4 m ρ c (Proc.devRef .tc main_v31)) (W4 m ρ c (Proc.devRef .tc main_v5)) (W4 m ρ c (Proc.devRef .tc main_v6))
          (W4 m ρ c (Proc.devRef .tc main_v30)) (W4 m ρ c (Proc.devRef .tc main_arg3)) := by
  show StableHlo.after hostOps1_1 (StableHlo.after hostOps1 (W4 m ρ c)) (Proc.devRef .tc main_v48) = _
  after_results_simp
  rfl

/-- The chain between the first two launches leaves the edge vectors, the normalisation and the later arguments alone. -/
theorem W6_v5 (c : Dev nD) : W6 m ρ c (Proc.devRef .tc main_v5) = W4 m ρ c (Proc.devRef .tc main_v5) := by
  show StableHlo.after hostOps1_1 (StableHlo.after hostOps1 (W4 m ρ c)) (Proc.devRef .tc main_v5) = _
  after_results_simp <;> rfl
theorem W6_v6 (c : Dev nD) : W6 m ρ c (Proc.devRef .tc main_v6) = W4 m ρ c (Proc.devRef .tc main_v6) := by
  show StableHlo.after hostOps1_1 (StableHlo.after hostOps1 (W4 m ρ c)) (Proc.devRef .tc main_v6) = _
  after_results_simp <;> rfl
theorem W6_v30 (c : Dev nD) : W6 m ρ c (Proc.devRef .tc main_v30) = W4 m ρ c (Proc.devRef .tc main_v30) := by
  show StableHlo.after hostOps1_1 (StableHlo.after hostOps1 (W4 m ρ c)) (Proc.devRef .tc main_v30) = _
  after_results_simp <;> rfl
theorem W6_arg4 (c : Dev nD) : W6 m ρ c (Proc.devRef .tc main_arg4) = W4 m ρ c (Proc.devRef .tc main_arg4) := by
  show StableHlo.after hostOps1_1 (StableHlo.after hostOps1 (W4 m ρ c)) (Proc.devRef .tc main_arg4) = _
  after_results_simp <;> rfl
theorem W6_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  after_results_simp <;> rfl
theorem W6_arg6 (c : Dev nD) : W6 m ρ c (Proc.devRef .tc main_arg6) = W4 m ρ c (Proc.devRef .tc main_arg6) := by
  show StableHlo.after hostOps1_1 (StableHlo.after hostOps1 (W4 m ρ c)) (Proc.devRef .tc main_arg6) = _
  after_results_simp <;> rfl
theorem W6_arg7 (c : Dev nD) : W6 m ρ c (Proc.devRef .tc main_arg7) = W4 m ρ c (Proc.devRef .tc main_arg7) := by
  show StableHlo.after hostOps1_1 (StableHlo.after hostOps1 (W4 m ρ c)) (Proc.devRef .tc main_arg7) = _
  after_results_simp <;> rfl

/-! ## Between the second launch and the third -/

set_option maxHeartbeats 2000000 in
/-- The second layer applied to the second launch's result. -/
theorem layer2 (c : Dev nD) :
    W9 m ρ c (Proc.devRef .tc main_v66)
      = layer (W7 m ρ c (Proc.devRef .tc main_v49)) (W7 m ρ c (Proc.devRef .tc main_v5)) (W7 m ρ c (Proc.devRef .tc main_v6))
          (W7 m ρ c (Proc.devRef .tc main_v30)) (W7 m ρ c (Proc.devRef .tc main_arg5)) := by
  show StableHlo.after hostOps2_1 (StableHlo.after hostOps2 (W7 m ρ c)) (Proc.devRef .tc main_v66) = _
  after_results_simp
  rfl

theorem W9_arg6 (c : Dev nD) : W9 m ρ c (Proc.devRef .tc main_arg6) = W7 m ρ c (Proc.devRef .tc main_arg6) := by
  show StableHlo.after hostOps2_1 (StableHlo.after hostOps2 (W7 m ρ c)) (Proc.devRef .tc main_arg6) = _
  after_results_simp <;> rfl
theorem W9_arg7 (c : Dev nD) : W9 m ρ c (Proc.devRef .tc main_arg7) = W7 m ρ c (Proc.devRef .tc main_arg7) := by
  show StableHlo.after hostOps2_1 (StableHlo.after hostOps2 (W7 m ρ c)) (Proc.devRef .tc main_arg7) = _
  after_results_simp <;> rfl

end Cert.KernelIdeal.Host

end
-- ==== Proof.Proj1.lean ====
/-
  The first projection, x · W1, as one array. The launch walks the 100000 rows of x in twenty blocks of
  5000; at each block the body multiplies the block [5000, 256] by the whole of W1 [256, 16] into a zero
  accumulator and stores the product as the same rows of the result. Over the extended reals a product entry
  is the plain sum  ∑ k, x[r, k] · W1[k, j]  (a change of float format is the identity), and row r of block t
  is row 5000·t + r of x: so the result array is that sum at every (r, j), whatever the tiling.
-/
import proofs.«148033_j91061896609816_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Proj1

open Cert.KernelIdeal Cert.KernelIdeal.Gen

/-- Entry (r, k) of a [100000, 256] array, from an index of the [100000, 16] result and a contraction coordinate. -/
abbrev li (i : S100000x16.Idx) (k : Fin 256) : S100000x256.Idx := fun a => match a with
  | ⟨0, _⟩ => ⟨(i 0).val, (i 0).isLt⟩
  | ⟨1, _⟩ => ⟨k.val, k.isLt⟩
/-- Entry (k, j) of the [256, 16] weight. -/
abbrev ri (i : S100000x16.Idx) (k : Fin 256) : S256x16.Idx := fun a => match a with
  | ⟨0, _⟩ => ⟨k.val, k.isLt⟩
  | ⟨1, _⟩ => ⟨(i 1).val, (i 1).isLt⟩

/-- x · w, entry by entry: (x · w)[r, j] = ∑ k, x[r, k] · w[k, j]. -/
def prod (x : S100000x256.Idx → EReal) (w : S256x16.Idx → EReal) : S100000x16.Idx → EReal :=
  fun i => ∑ k : Fin 256, x (li i k) * w (ri i k)

/-- The same two entries inside one block of 5000 rows. -/
abbrev bli (y : S5000x16.Idx) (k : Fin 256) : S5000x256.Idx := fun a => match a with
  | ⟨0, _⟩ => ⟨(y 0).val, (y 0).isLt⟩
  | ⟨1, _⟩ => ⟨k.val, k.isLt⟩
abbrev bri (y : S5000x16.Idx) (k : Fin 256) : S256x16.Idx := fun a => match a with
  | ⟨0, _⟩ => ⟨k.val, k.isLt⟩
  | ⟨1, _⟩ => ⟨(y 1).val, (y 1).isLt⟩

theorem hz : (![0, 0] : Fin 2 → Nat) = fun _ => 0 := funext fun a => by fin_cases a <;> rfl

/-! ## The block product at an entry -/

theorem lhs_0 (y : S5000x16.Idx) (q : dot_S5000x256_S256x16_S5000x16_1_0_0_1_n_n.contr.Idx) :
    (dot_S5000x256_S256x16_S5000x16_1_0_0_1_n_n.lhsIdx y q 0).val = (y 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem lhs_1 (y : S5000x16.Idx) (q : dot_S5000x256_S256x16_S5000x16_1_0_0_1_n_n.contr.Idx) :
    (dot_S5000x256_S256x16_S5000x16_1_0_0_1_n_n.lhsIdx y q 1).val = (q ⟨0, by decide⟩).val :=
  dot_S5000x256_S256x16_S5000x16_1_0_0_1_n_n.lhsIdx_val_of_single rfl y q
theorem rhs_0 (y : S5000x16.Idx) (q : dot_S5000x256_S256x16_S5000x16_1_0_0_1_n_n.contr.Idx) :
    (dot_S5000x256_S256x16_S5000x16_1_0_0_1_n_n.rhsIdx y q 0).val = (q ⟨0, by decide⟩).val :=
  dot_S5000x256_S256x16_S5000x16_1_0_0_1_n_n.rhsIdx_val_of_single rfl y q
theorem rhs_1 (y : S5000x16.Idx) (q : dot_S5000x256_S256x16_S5000x16_1_0_0_1_n_n.contr.Idx) :
    (dot_S5000x256_S256x16_S5000x16_1_0_0_1_n_n.rhsIdx y q 1).val = (y 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-- What the body stores, at entry y of the block: the sum over k of the loaded rows times the loaded weight. -/
theorem stored_apply (x0 : Vec Ideal S5000x256 .f32) (x1 : Vec Ideal S256x16 .f32) (y : S5000x16.Idx) :
    k0_pay1 (F := Ideal) x0 x1 y = ∑ k : Fin 256, x0 (bli y k) * x1 (bri y k) := by
  unfold k0_pay1
  simp only [matmul]
  rw [Ideal.matmul_constant_zero_apply, ← Equiv.sum_comp (ValueIdx.contrEquiv1 dot_S5000x256_S256x16_S5000x16_1_0_0_1_n_n 256 rfl rfl).symm]
  refine Finset.sum_congr rfl fun k _ => ?_
  have hk := ValueIdx.contrEquiv1_symm_val dot_S5000x256_S256x16_S5000x16_1_0_0_1_n_n 256 rfl rfl k
  have el : dot_S5000x256_S256x16_S5000x16_1_0_0_1_n_n.lhsIdx y ((ValueIdx.contrEquiv1 dot_S5000x256_S256x16_S5000x16_1_0_0_1_n_n 256 rfl rfl).symm k) = bli y k := funext fun a => Fin.ext (by
    match a with
    | ⟨0, _⟩ => exact lhs_0 _ _
    | ⟨1, _⟩ => exact (lhs_1 _ _).trans hk)
  have er : dot_S5000x256_S256x16_S5000x16_1_0_0_1_n_n.rhsIdx y ((ValueIdx.contrEquiv1 dot_S5000x256_S256x16_S5000x16_1_0_0_1_n_n 256 rfl rfl).symm k) = bri y k := funext fun a => Fin.ext (by
    match a with
    | ⟨0, _⟩ => exact (rhs_0 _ _).trans hk
    | ⟨1, _⟩ => exact rhs_1 _ _)
  rw [el, er]
  rfl

/-! ## Where the blocks sit -/

/-- The index maps over the grid: block t of x and of the result is row block t, the weight is fetched whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is rows 5000·t … 5000·t + 4999 of x · W1. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x16) hz]
  obtain ⟨e0, e1, e2, e3, e4, e5⟩ := idx_facts t
  funext j
  show k0_pay1 (iblk0 V c 0 t) (iblk0 V c 1 t) j = prod (V c main_arg0) (V c main_arg2) (((cfg0.win 2).blk t).view.emb j)
  refine (stored_apply _ _ _).trans ?_
  unfold prod
  refine Finset.sum_congr rfl fun k _ => ?_
  have h0 : iblk0 V c 0 t (bli j k) = V c main_arg0 (li (((cfg0.win 2).blk t).view.emb j) k) := by
    show V c main_arg0 (((cfg0.win 0).blk t).view.emb (bli j k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (bri j k) = V c main_arg2 (ri (((cfg0.win 2).blk t).view.emb j) k) := by
    show V c main_arg2 (((cfg0.win 1).blk t).view.emb (bri j k)) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 16 + 1 * (j 1).val = win0_2.index t (1 : Fin 2) * 16 + 1 * (j 1).val; omega
  rw [h0, h1]

/-- An index of the result is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Every row lies in the block of the point r / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 5000, by show (i 0).val / 5000 < 20; omega⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4]; show (i 0).val / 5000 * 5000 ≤ (i 0).val ∧ (i 0).val < (i 0).val / 5000 * 5000 + 5000; omega
  | ⟨1, _⟩ => show win0_2.index t (1 : Fin 2) * 16 ≤ (i 1).val ∧ (i 1).val < win0_2.index t (1 : Fin 2) * 16 + 16; omega

/-- After the launch the result array holds x · W1, x and W1 read as the launch found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Proj1

end
-- ==== Proof.Proj2.lean ====
/-
  The second projection, h1 · W2, as one array. The launch walks the 100000 rows of h1 in twenty blocks of
  5000; at each block the body multiplies the block [5000, 16] by the whole of W2 [16, 16] into a zero
  accumulator and stores the product as the same rows of the result. Over the extended reals a product entry
  is the plain sum  ∑ k, h1[r, k] · W2[k, j], and row r of block t is row 5000·t + r of h1: so the result
  array is that sum at every (r, j), whatever the tiling.
-/
import proofs.«148033_j91061896609816_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Proj2

open Cert.KernelIdeal Cert.KernelIdeal.Gen

/-- Entry (r, k) of a [100000, 16] operand, from an index of the [100000, 16] result and a contraction coordinate. -/
abbrev li (i : S100000x16.Idx) (k : Fin 16) : S100000x16.Idx := fun a => match a with
  | ⟨0, _⟩ => ⟨(i 0).val, (i 0).isLt⟩
  | ⟨1, _⟩ => ⟨k.val, k.isLt⟩
/-- Entry (k, j) of the [16, 16] weight. -/
abbrev ri (i : S100000x16.Idx) (k : Fin 16) : S16x16.Idx := fun a => match a with
  | ⟨0, _⟩ => ⟨k.val, k.isLt⟩
  | ⟨1, _⟩ => ⟨(i 1).val, (i 1).isLt⟩

/-- h · w, entry by entry: (h · w)[r, j] = ∑ k, h[r, k] · w[k, j]. -/
def prod (x : S100000x16.Idx → EReal) (w : S16x16.Idx → EReal) : S100000x16.Idx → EReal :=
  fun i => ∑ k : Fin 16, x (li i k) * w (ri i k)

/-- The same two entries inside one block of 5000 rows. -/
abbrev bli (y : S5000x16.Idx) (k : Fin 16) : S5000x16.Idx := fun a => match a with
  | ⟨0, _⟩ => ⟨(y 0).val, (y 0).isLt⟩
  | ⟨1, _⟩ => ⟨k.val, k.isLt⟩
abbrev bri (y : S5000x16.Idx) (k : Fin 16) : S16x16.Idx := fun a => match a with
  | ⟨0, _⟩ => ⟨k.val, k.isLt⟩
  | ⟨1, _⟩ => ⟨(y 1).val, (y 1).isLt⟩

theorem hz : (![0, 0] : Fin 2 → Nat) = fun _ => 0 := funext fun a => by fin_cases a <;> rfl

/-! ## The block product at an entry -/

theorem lhs_0 (y : S5000x16.Idx) (q : dot_S5000x16_S16x16_S5000x16_1_0_0_1_n_n.contr.Idx) :
    (dot_S5000x16_S16x16_S5000x16_1_0_0_1_n_n.lhsIdx y q 0).val = (y 0).val := by
  unfold DotDims.lhsIdx
  rw [dif_neg (show ¬(0 : Fin S5000x16.rank) ∈ dot_S5000x16_S16x16_S5000x16_1_0_0_1_n_n.lhsBatch by decide), dif_pos (show (0 : Fin S5000x16.rank) ∈ dot_S5000x16_S16x16_S5000x16_1_0_0_1_n_n.lhsNonContracting by decide)]
  rfl
theorem lhs_1 (y : S5000x16.Idx) (q : dot_S5000x16_S16x16_S5000x16_1_0_0_1_n_n.contr.Idx) :
    (dot_S5000x16_S16x16_S5000x16_1_0_0_1_n_n.lhsIdx y q 1).val = (q ⟨0, by decide⟩).val :=
  dot_S5000x16_S16x16_S5000x16_1_0_0_1_n_n.lhsIdx_val_of_single rfl y q
theorem rhs_0 (y : S5000x16.Idx) (q : dot_S5000x16_S16x16_S5000x16_1_0_0_1_n_n.contr.Idx) :
    (dot_S5000x16_S16x16_S5000x16_1_0_0_1_n_n.rhsIdx y q 0).val = (q ⟨0, by decide⟩).val :=
  dot_S5000x16_S16x16_S5000x16_1_0_0_1_n_n.rhsIdx_val_of_single rfl y q
theorem rhs_1 (y : S5000x16.Idx) (q : dot_S5000x16_S16x16_S5000x16_1_0_0_1_n_n.contr.Idx) :
    (dot_S5000x16_S16x16_S5000x16_1_0_0_1_n_n.rhsIdx y q 1).val = (y 1).val := by
  unfold DotDims.rhsIdx
  rw [dif_neg (show ¬(1 : Fin S16x16.rank) ∈ dot_S5000x16_S16x16_S5000x16_1_0_0_1_n_n.rhsBatch by decide), dif_pos (show (1 : Fin S16x16.rank) ∈ dot_S5000x16_S16x16_S5000x16_1_0_0_1_n_n.rhsNonContracting by decide)]
  rfl

/-- What the body stores, at entry y of the block: the sum over k of the loaded rows times the loaded weight
    (the cast of the loaded block to its own shape changes nothing). -/
theorem stored_apply (x0 : Vec Ideal S5000x16 .f32) (x1 : Vec Ideal S16x16 .f32) (y : S5000x16.Idx) :
    k1_pay1 (F := Ideal) x0 x1 y = ∑ k : Fin 16, x0 (bli y k) * x1 (bri y k) := by
  unfold k1_pay1
  simp only [matmul]
  rw [Ideal.matmul_constant_zero_apply, ← Equiv.sum_comp (ValueIdx.contrEquiv1 dot_S5000x16_S16x16_S5000x16_1_0_0_1_n_n 16 rfl rfl).symm]
  refine Finset.sum_congr rfl fun k _ => ?_
  have hk := ValueIdx.contrEquiv1_symm_val dot_S5000x16_S16x16_S5000x16_1_0_0_1_n_n 16 rfl rfl k
  have el : dot_S5000x16_S16x16_S5000x16_1_0_0_1_n_n.lhsIdx y ((ValueIdx.contrEquiv1 dot_S5000x16_S16x16_S5000x16_1_0_0_1_n_n 16 rfl rfl).symm k) = bli y k := funext fun a => Fin.ext (by
    match a with
    | ⟨0, _⟩ => exact lhs_0 _ _
    | ⟨1, _⟩ => exact (lhs_1 _ _).trans hk)
  have er : dot_S5000x16_S16x16_S5000x16_1_0_0_1_n_n.rhsIdx y ((ValueIdx.contrEquiv1 dot_S5000x16_S16x16_S5000x16_1_0_0_1_n_n 16 rfl rfl).symm k) = bri y k := funext fun a => Fin.ext (by
    match a with
    | ⟨0, _⟩ => exact (rhs_0 _ _).trans hk
    | ⟨1, _⟩ => exact rhs_1 _ _)
  rw [el, er]
  show shapeCast S5000x16 x0 shapeCasts_S5000x16_S5000x16 (bli y k) * x1 (bri y k) = _
  rw [shapeCast_self]

/-! ## Where the blocks sit -/

/-- The index maps over the grid: block t of h1 and of the result is row block t, the weight is fetched whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is rows 5000·t … 5000·t + 4999 of h1 · W2. -/
theorem flushed_eq (c : Dev nD) (t : Fin cfg1.N) :
    (dat1 V c).flushed 2 t = ((cfg1.win 2).blk t).view.read (Elt Ideal) (prod (V c main_v48) (V c main_arg4)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x16) hz]
  obtain ⟨e0, e1, e2, e3, e4, e5⟩ := idx_facts t
  funext j
  show k1_pay1 (iblk1 V c 0 t) (iblk1 V c 1 t) j = prod (V c main_v48) (V c main_arg4) (((cfg1.win 2).blk t).view.emb j)
  refine (stored_apply _ _ _).trans ?_
  unfold prod
  refine Finset.sum_congr rfl fun k _ => ?_
  have h0 : iblk1 V c 0 t (bli j k) = V c main_v48 (li (((cfg1.win 2).blk t).view.emb j) k) := by
    show V c main_v48 (((cfg1.win 0).blk t).view.emb (bli j k)) = _
    refine congrArg (V c main_v48) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 16 + 1 * k.val = k.val; omega
  have h1 : iblk1 V c 1 t (bri j k) = V c main_arg4 (ri (((cfg1.win 2).blk t).view.emb j) k) := by
    show V c main_arg4 (((cfg1.win 1).blk t).view.emb (bri j k)) = _
    refine congrArg (V c main_arg4) ?_
    funext a; apply Fin.ext
    match a with
    | ⟨0, _⟩ => show win1_1.index t (0 : Fin 2) * 16 + 1 * k.val = k.val; omega
    | ⟨1, _⟩ => show win1_1.index t (1 : Fin 2) * 16 + 1 * (j 1).val = win1_2.index t (1 : Fin 2) * 16 + 1 * (j 1).val; omega
  rw [h0, h1]

/-- An index of the result is in point t's block iff each coordinate is in the block's range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v49).slice (win1_2.rect t)).set ↔ _
  rw [View.set_slice_whole, Rect.mem_set_unit]
  exact Iff.rfl

/-- Every row lies in the block of the point r / 5000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  let t : Fin cfg1.N := ⟨(i 0).val / 5000, by show (i 0).val / 5000 < 20; omega⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4]; show (i 0).val / 5000 * 5000 ≤ (i 0).val ∧ (i 0).val < (i 0).val / 5000 * 5000 + 5000; omega
  | ⟨1, _⟩ => show win1_2.index t (1 : Fin 2) * 16 ≤ (i 1).val ∧ (i 1).val < win1_2.index t (1 : Fin 2) * 16 + 16; omega

/-- After the launch the result array holds h1 · W2, h1 and W2 read as the launch found them. -/
theorem final (c : Dev nD) : (dat1 V c).arrAt 2 cfg1.N = prod (V c main_v48) (V c main_arg4) :=
  (dat1 V c).arrAt_eq_of_cover 2 (prod (V c main_v48) (V c main_arg4)) (fun t _ => flushed_eq V c t) cover

end Cert.KernelIdeal.Proj2

end
-- ==== Proof.Classify.lean ====
/-
  The classifier, log_softmax(h2 · Wout + bout) row by row, as one array. The launch walks the 100000 rows of
  h2 in twenty blocks of 5000; at each block the body forms the seven logits of every row (the row of the block
  times Wout [16, 7] into a zero accumulator, plus the bias), takes the row's maximum, subtracts it, and
  subtracts the logarithm of the sum of the exponentials of the shifted logits. Every step is local to a row, and
  row r of block t is row 5000·t + r of h2: so the result array is, at (r, j), the log-softmax of row r's seven
  logits read at j, whatever the tiling.
-/
import proofs.«148033_j91061896609816_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Classify

open Cert.KernelIdeal Cert.KernelIdeal.Gen

/-- The log-softmax of seven extended reals, read at j: the number minus the maximum, minus the logarithm of the
    sum of the exponentials of the numbers minus the maximum. The maximum is folded from −∞ (the word 0xFF800000). -/
def rowLsm (z : Fin 7 → EReal) (j : Fin 7) : EReal :=
  (z j - Finset.univ.fold max (Ideal.ofBits .f32 0xFF800000#32) z)
    - Ideal.log (∑ k : Fin 7, Ideal.exp (z k - Finset.univ.fold max (Ideal.ofBits .f32 0xFF800000#32) z))

/-- The seven logits of row r of an [n, 16] array against a [16, 7] weight and a bias of seven. -/
def logit {n : Nat} (h : (⟨2, ![n, 16]⟩ : Shape).Idx → EReal) (w : S16x7.Idx → EReal) (b : S7.Idx → EReal) (r : Fin n) (k : Fin 7) : EReal :=
  (∑ q : Fin 16, h (ix2 r q) * w (ix2 q k)) + b (ix1 k)

/-- The classifier's result over all rows. -/
def out (h : S100000x16.Idx → EReal) (w : S16x7.Idx → EReal) (b : S7.Idx → EReal) : S100000x7.Idx → EReal :=
  fun i => rowLsm (logit h w b (i 0)) (i 1)

theorem hz : (![0, 0] : Fin 2 → Nat) = fun _ => 0 := funext fun a => by fin_cases a <;> rfl
theorem hz1 : (![0] : Fin 1 → Nat) = fun _ => 0 := funext fun a => by fin_cases a <;> rfl

/-! ## The body's steps at an entry -/

theorem lhs_0 (y : S5000x7.Idx) (q : dot_S5000x16_S16x7_S5000x7_1_0_0_1_n_n.contr.Idx) :
    (dot_S5000x16_S16x7_S5000x7_1_0_0_1_n_n.lhsIdx y q 0).val = (y 0).val := by
  unfold DotDims.lhsIdx
  rw [dif_neg (show ¬(0 : Fin S5000x16.rank) ∈ dot_S5000x16_S16x7_S5000x7_1_0_0_1_n_n.lhsBatch by decide), dif_pos (show (0 : Fin S5000x16.rank) ∈ dot_S5000x16_S16x7_S5000x7_1_0_0_1_n_n.lhsNonContracting by decide)]
  rfl
theorem lhs_1 (y : S5000x7.Idx) (q : dot_S5000x16_S16x7_S5000x7_1_0_0_1_n_n.contr.Idx) :
    (dot_S5000x16_S16x7_S5000x7_1_0_0_1_n_n.lhsIdx y q 1).val = (q ⟨0, by decide⟩).val :=
  dot_S5000x16_S16x7_S5000x7_1_0_0_1_n_n.lhsIdx_val_of_single rfl y q
theorem rhs_0 (y : S5000x7.Idx) (q : dot_S5000x16_S16x7_S5000x7_1_0_0_1_n_n.contr.Idx) :
    (dot_S5000x16_S16x7_S5000x7_1_0_0_1_n_n.rhsIdx y q 0).val = (q ⟨0, by decide⟩).val :=
  dot_S5000x16_S16x7_S5000x7_1_0_0_1_n_n.rhsIdx_val_of_single rfl y q
theorem rhs_1 (y : S5000x7.Idx) (q : dot_S5000x16_S16x7_S5000x7_1_0_0_1_n_n.contr.Idx) :
    (dot_S5000x16_S16x7_S5000x7_1_0_0_1_n_n.rhsIdx y q 1).val = (y 1).val := by
  unfold DotDims.rhsIdx
  rw [dif_neg (show ¬(1 : Fin S16x7.rank) ∈ dot_S5000x16_S16x7_S5000x7_1_0_0_1_n_n.rhsBatch by decide), dif_pos (show (1 : Fin S16x7.rank) ∈ dot_S5000x16_S16x7_S5000x7_1_0_0_1_n_n.rhsNonContracting by decide)]
  rfl

/-- The block's logits as the body forms them: the product into zero, plus the bias row spread over the rows. -/
def blockLogits (x0 : Vec Ideal S5000x16 .f32) (x1 : Vec Ideal S16x7 .f32) (x2 : Vec Ideal S7 .f32) : FVec Ideal S5000x7 .f32 :=
  addf (matmul dot_S5000x16_S16x7_S5000x7_1_0_0_1_n_n none (truncf .bf16 (shapeCast S5000x16 x0 shapeCasts_S5000x16_S5000x16) bitsLt_bf16_f32) (truncf .bf16 x1 bitsLt_bf16_f32) (constant S5000x7 .f32 0x00000000#32))
    (broadcastTo S5000x7 (shapeCast S1x7 x2 shapeCasts_S7_S1x7) broadcasts_S1x7_S5000x7)

/-- At (p, k) they are row p's logit k. -/
theorem blockLogits_apply (x0 : Vec Ideal S5000x16 .f32) (x1 : Vec Ideal S16x7 .f32) (x2 : Vec Ideal S7 .f32) (p : Fin 5000) (k : Fin 7) :
    blockLogits x0 x1 x2 (ix2 p k) = logit x0 x1 x2 p k := by
  unfold blockLogits logit
  rw [addf_apply]
  congr 1
  · simp only [matmul]
    rw [Ideal.matmul_constant_zero_apply, ← Equiv.sum_comp (ValueIdx.contrEquiv1 dot_S5000x16_S16x7_S5000x7_1_0_0_1_n_n 16 rfl rfl).symm]
    refine Finset.sum_congr rfl fun q _ => ?_
    have hq := ValueIdx.contrEquiv1_symm_val dot_S5000x16_S16x7_S5000x7_1_0_0_1_n_n 16 rfl rfl q
    have el : dot_S5000x16_S16x7_S5000x7_1_0_0_1_n_n.lhsIdx (ix2 p k) ((ValueIdx.contrEquiv1 dot_S5000x16_S16x7_S5000x7_1_0_0_1_n_n 16 rfl rfl).symm q) = ix2 p q := funext fun a => Fin.ext (by
      match a with
      | ⟨0, _⟩ => exact lhs_0 _ _
      | ⟨1, _⟩ => exact (lhs_1 _ _).trans hq)
    have er : dot_S5000x16_S16x7_S5000x7_1_0_0_1_n_n.rhsIdx (ix2 p k) ((ValueIdx.contrEquiv1 dot_S5000x16_S16x7_S5000x7_1_0_0_1_n_n 16 rfl rfl).symm q) = ix2 q k := funext fun a => Fin.ext (by
      match a with
      | ⟨0, _⟩ => exact (rhs_0 _ _).trans hq
      | ⟨1, _⟩ => exact rhs_1 _ _)
    rw [el, er]
    show shapeCast S5000x16 x0 shapeCasts_S5000x16_S5000x16 (ix2 p q) * x1 (ix2 q k) = _
    rw [shapeCast_self]
  · rw [broadcastTo_1b_ab_apply, shapeCast_a_1a_apply]

/-- A column [5000] made a [5000, 1] array reads, at (p, 0), the column at p. -/
theorem column_apply {α : Type} (v : S5000.Idx → α) (p : Fin 5000) :
    shapeCast S5000x1 v shapeCasts_S5000_S5000x1 (ix2 p (0 : Fin 1)) = v (ix1 p) :=
  shapeCast_apply v shapeCasts_S5000_S5000x1 _ _ (by
    rw [Shape.rowMajor_val_two, Shape.rowMajor_val_one]
    show p.val = p.val * 1 + 0
    omega)

/-- A [5000, 1] array spread over seven columns reads, at (p, k), the array at (p, 0). -/
theorem spread_apply {α : Type} (u : S5000x1.Idx → α) (p : Fin 5000) (k : Fin 7) :
    broadcastTo S5000x7 u broadcasts_S5000x1_S5000x7 (ix2 p k) = u (ix2 p (0 : Fin 1)) := by
  refine broadcastTo_apply u broadcasts_S5000x1_S5000x7 (ix2 p k) (ix2 p (0 : Fin 1)) fun ax => ?_
  match ax with
  | ⟨0, _⟩ => show p.val = if (5000 : Nat) = 1 then 0 else p.val; rw [if_neg (by decide)]
  | ⟨1, _⟩ => show 0 = if (1 : Nat) = 1 then 0 else k.val; rw [if_pos rfl]

/-- The body's stored value is the row log-softmax of the block's logits: the steps of the body, one name each. -/
theorem stored_eq (x0 : Vec Ideal S5000x16 .f32) (x1 : Vec Ideal S16x7 .f32) (x2 : Vec Ideal S7 .f32) :
    k2_pay1 (F := Ideal) x0 x1 x2
      = subf (subf (blockLogits x0 x1 x2) (broadcastTo S5000x7 (shapeCast S5000x1 (multiReduction .maximumf [1] S5000 (blockLogits x0 x1 x2) 0xFF800000#32 reduces_S5000x7_S5000 (.inl rfl) rfl) shapeCasts_S5000_S5000x1) broadcasts_S5000x1_S5000x7))
          (broadcastTo S5000x7 (log (shapeCast S5000x1 (multiReduction .add [1] S5000 (exp (subf (blockLogits x0 x1 x2) (broadcastTo S5000x7 (shapeCast S5000x1 (multiReduction .maximumf [1] S5000 (blockLogits x0 x1 x2) 0xFF800000#32 reduces_S5000x7_S5000 (.inl rfl) rfl) shapeCasts_S5000_S5000x1) broadcasts_S5000x1_S5000x7))) 0x00000000#32 reduces_S5000x7_S5000 (.inl rfl) rfl) shapeCasts_S5000_S5000x1)) broadcasts_S5000x1_S5000x7) := rfl

/-- Row p of a [5000, 7] block with the column k' put in: the index (p, k'). -/
theorem lift_eq (p : Fin 5000) (k' : Fin 7) : reduces_S5000x7_S5000.lift (ix1 p) k' = ix2 p k' :=
  funext fun a => Fin.ext (by match a with | ⟨0, _⟩ => rfl | ⟨1, _⟩ => rfl)

/-- The row maximum of a [5000, 7] block, spread back over the seven columns, at (p, k): the fold of max from −∞ over row p. -/
theorem rowMax_apply (v : FVec Ideal S5000x7 .f32) (p : Fin 5000) (k : Fin 7) :
    broadcastTo S5000x7 (shapeCast S5000x1 (multiReduction .maximumf [1] S5000 v 0xFF800000#32 reduces_S5000x7_S5000 (.inl rfl) rfl) shapeCasts_S5000_S5000x1) broadcasts_S5000x1_S5000x7 (ix2 p k)
      = Finset.univ.fold max (Ideal.ofBits .f32 0xFF800000#32) (fun k' : Fin 7 => v (ix2 p k')) := by
  rw [spread_apply, column_apply]
  refine (Ideal.multiReduction_maximumf_single v 0xFF800000#32 reduces_S5000x7_S5000 (.inl rfl) rfl (ix1 p)).trans ?_
  show Finset.univ.fold max (Ideal.ofBits .f32 0xFF800000#32) (fun k' : Fin 7 => v (reduces_S5000x7_S5000.lift (ix1 p) k')) = _
  exact congrArg (fun f : Fin 7 → EReal => Finset.univ.fold max (Ideal.ofBits .f32 0xFF800000#32) f) (funext fun k' => congrArg v (lift_eq p k'))

/-- The logarithm of the row sum of a [5000, 7] block, spread back over the seven columns, at (p, k). -/
theorem logRowSum_apply (v : FVec Ideal S5000x7 .f32) (p : Fin 5000) (k : Fin 7) :
    broadcastTo S5000x7 (log (shapeCast S5000x1 (multiReduction .add [1] S5000 v 0x00000000#32 reduces_S5000x7_S5000 (.inl rfl) rfl) shapeCasts_S5000_S5000x1)) broadcasts_S5000x1_S5000x7 (ix2 p k)
      = Ideal.log (∑ k' : Fin 7, v (ix2 p k')) := by
  rw [spread_apply]
  show Ideal.log (shapeCast S5000x1 (multiReduction .add [1] S5000 v 0x00000000#32 reduces_S5000x7_S5000 (.inl rfl) rfl) shapeCasts_S5000_S5000x1 (ix2 p (0 : Fin 1))) = _
  rw [column_apply]
  refine congrArg Ideal.log ?_
  refine (Ideal.multiReduction_add_single v 0x00000000#32 reduces_S5000x7_S5000 (.inl rfl) rfl (ix1 p)).trans ?_
  show ∑ k' : Fin 7, v (reduces_S5000x7_S5000.lift (ix1 p) k') = _
  exact Finset.sum_congr rfl fun k' _ => congrArg v (lift_eq p k')

/-- What the body stores, at (p, k): the log-softmax of row p's seven logits, read at k. -/
theorem stored_apply (x0 : Vec Ideal S5000x16 .f32) (x1 : Vec Ideal S16x7 .f32) (x2 : Vec Ideal S7 .f32) (p : Fin 5000) (k : Fin 7) :
    k2_pay1 (F := Ideal) x0 x1 x2 (ix2 p k) = rowLsm (logit x0 x1 x2 p) k := by
  rw [stored_eq]
  unfold rowLsm
  rw [subf_apply, subf_apply, rowMax_apply, logRowSum_apply, blockLogits_apply]
  have hmax : (fun k' : Fin 7 => blockLogits x0 x1 x2 (ix2 p k')) = logit x0 x1 x2 p := funext fun k' => blockLogits_apply x0 x1 x2 p k'
  rw [hmax]
  refine congrArg (fun s => _ - Ideal.log s) (Finset.sum_congr rfl fun k' _ => ?_)
  show Ideal.exp (subf (blockLogits x0 x1 x2) _ (ix2 p k')) = _
  rw [subf_apply, rowMax_apply, blockLogits_apply, hmax]

/-! ## Where the blocks sit -/

/-- The index maps over the grid: block t of h2 and of the result is row block t; the weight and the bias are fetched whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point t writes back is rows 5000·t … 5000·t + 4999 of the classifier's result. -/
theorem flushed_eq (c : Dev nD) (t : Fin cfg2.N) :
    (dat2 V c).flushed 3 t = ((cfg2.win 3).blk t).view.read (Elt Ideal) (out (V c main_v66) (V c main_arg6) (V c main_arg7)) := by
  show (cfg2.win 3).cut (grid2.coords t) ((dat2 V c).after 3 t) = _
  rw [after2_3]
  unfold out2_3
  rw [View.canon_unit_zero hz]
  simp only [View.ld_unit_zero (S := S5000x16) hz, View.ld_unit_zero (S := S16x7) hz, View.ld_unit_zero (S := S7) hz1]
  obtain ⟨e0, e1, e2, e3, e4, e5, e6⟩ := idx_facts t
  have ht : t.val < 20 := t.isLt
  funext j
  obtain ⟨p, k, rfl⟩ : ∃ (p : Fin 5000) (k : Fin 7), j = ix2 p k := ⟨j 0, j 1, eq_ix2 j⟩
  show k2_pay1 (iblk2 V c 0 t) (iblk2 V c 1 t) (iblk2 V c 2 t) (ix2 p k) = out (V c main_v66) (V c main_arg6) (V c main_arg7) (((cfg2.win 3).blk t).view.emb (ix2 p k))
  refine (stored_apply _ _ _ p k).trans ?_
  have hr : ((cfg2.win 3).blk t).view.emb (ix2 p k) = ix2 (⟨t.val * 5000 + p.val, by have := p.isLt; omega⟩ : Fin 100000) k :=
    funext fun a => Fin.ext (by
      match a with
      | ⟨0, _⟩ => show win2_3.index t (0 : Fin 2) * 5000 + 1 * p.val = t.val * 5000 + p.val; omega
      | ⟨1, _⟩ => show win2_3.index t (1 : Fin 2) * 7 + 1 * k.val = k.val; omega)
  rw [hr]
  show rowLsm (logit (iblk2 V c 0 t) (iblk2 V c 1 t) (iblk2 V c 2 t) p) k
    = rowLsm (logit (V c main_v66) (V c main_arg6) (V c main_arg7) (⟨t.val * 5000 + p.val, by have := p.isLt; omega⟩ : Fin 100000)) k
  refine congrArg (fun z => rowLsm z k) (funext fun k' => ?_)
  unfold logit
  congr 1
  · refine Finset.sum_congr rfl fun q _ => ?_
    congr 1
    · show V c main_v66 (((cfg2.win 0).blk t).view.emb (ix2 p q)) = _
      refine congrArg (V c main_v66) (funext fun a => Fin.ext ?_)
      match a with
      | ⟨0, _⟩ => show win2_0.index t (0 : Fin 2) * 5000 + 1 * p.val = t.val * 5000 + p.val; omega
      | ⟨1, _⟩ => show win2_0.index t (1 : Fin 2) * 16 + 1 * q.val = q.val; omega
    · show V c main_arg6 (((cfg2.win 1).blk t).view.emb (ix2 q k')) = _
      refine congrArg (V c main_arg6) (funext fun a => Fin.ext ?_)
      match a with
      | ⟨0, _⟩ => show win2_1.index t (0 : Fin 2) * 16 + 1 * q.val = q.val; omega
      | ⟨1, _⟩ => show win2_1.index t (1 : Fin 2) * 7 + 1 * k'.val = k'.val; omega
  · show V c main_arg7 (((cfg2.win 2).blk t).view.emb (ix1 k')) = _
    refine congrArg (V c main_arg7) (funext fun a => Fin.ext ?_)
    match a with
    | ⟨0, _⟩ => show win2_2.index t (0 : Fin 1) * 7 + 1 * k'.val = k'.val; omega

/-- An index of the result is in point t's block iff each coordinate is in the block's range on its axis. -/
theorem mem_blk (t : Fin cfg2.N) (i : S100000x7.Idx) :
    i ∈ ((cfg2.win 3).blk t).view.set ↔ ∀ a : Fin 2, win2_3.index t a * S5000x7.size a ≤ (i a).val ∧ (i a).val < win2_3.index t a * S5000x7.size a + S5000x7.size a := by
  show i ∈ ((View.whole main_v67).slice (win2_3.rect t)).set ↔ _
  rw [View.set_slice_whole, Rect.mem_set_unit]
  exact Iff.rfl

/-- Every row lies in the block of the point r / 5000. -/
theorem cover (i : S100000x7.Idx) : ∃ t : Fin cfg2.N, (cfg2.win 3).flush t = true ∧ i ∈ ((cfg2.win 3).blk t).view.set := by
  have hi0 : (i 0).val < 100000 := (i 0).isLt
  have hi1 : (i 1).val < 7 := (i 1).isLt
  let t : Fin cfg2.N := ⟨(i 0).val / 5000, by show (i 0).val / 5000 < 20; omega⟩
  obtain ⟨-, -, -, -, -, e5, e6⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e5]; show (i 0).val / 5000 * 5000 ≤ (i 0).val ∧ (i 0).val < (i 0).val / 5000 * 5000 + 5000; omega
  | ⟨1, _⟩ => show win2_3.index t (1 : Fin 2) * 7 ≤ (i 1).val ∧ (i 1).val < win2_3.index t (1 : Fin 2) * 7 + 7; omega

/-- After the launch the result array holds the classifier's result, h2, Wout and bout read as the launch found them. -/
theorem final (c : Dev nD) : (dat2 V c).arrAt 3 cfg2.N = out (V c main_v66) (V c main_arg6) (V c main_arg7) :=
  (dat2 V c).arrAt_eq_of_cover 3 (out (V c main_v66) (V c main_arg6) (V c main_arg7)) (fun t _ => flushed_eq V c t) cover

end Cert.KernelIdeal.Classify

end
-- ==== Proof.RefStages.lean ====
/-
  The reference, stage by stage, in the words the kernel's side is stated in: each of its three matrix products as the
  plain sum over the contracted coordinate, each of its two layers as the shared layer function of its product, and
  its log_softmax as the row log-softmax of the logits. The reference computes the edge vectors and the normalisation
  once per layer; the two computations are the same terms.
-/
import proofs.«148033_j91061896609816_1_alg».proof.Proof.RefRead
import proofs.«148033_j91061896609816_1_alg».proof.Proof.Layer
import proofs.«148033_j91061896609816_1_alg».proof.Proof.Proj1
import proofs.«148033_j91061896609816_1_alg».proof.Proof.Proj2
import proofs.«148033_j91061896609816_1_alg».proof.Proof.Classify
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx

namespace Cert.ReferenceIdeal.Stages

open Cert.ReferenceIdeal Cert.ReferenceIdeal.ReadP

variable {F : FTy → Type} [FloatOps F]

/-! ## The layers: the same host operations -/

/-- The first layer's output is the shared layer function of x · W1. -/
theorem layer1_eq (x0 : (⟨S100000x256, .f32⟩ : BufTy).Contents (Elt F)) (x1 : (⟨S2x3200000, .i32⟩ : BufTy).Contents (Elt F)) (x2 : (⟨S256x16, .f32⟩ : BufTy).Contents (Elt F)) (x3 : (⟨S16, .f32⟩ : BufTy).Contents (Elt F)) :
    val_main_v48 (F := F) x0 x1 x2 x3
      = Cert.KernelIdeal.Host.layer (val_main_v4 (F := F) x0 x2) (val_main_v6 (F := F) x1) (val_main_v7 (F := F) x1) (val_main_v31 (F := F) x1) x3 := rfl

/-- The second layer's output is the shared layer function of h1 · W2, over the same edge vectors and normalisation
    (recomputed by the reference: the same terms). -/
theorem layer2_eq (x0 : (⟨S100000x256, .f32⟩ : BufTy).Contents (Elt F)) (x1 : (⟨S2x3200000, .i32⟩ : BufTy).Contents (Elt F)) (x2 : (⟨S256x16, .f32⟩ : BufTy).Contents (Elt F)) (x3 : (⟨S16, .f32⟩ : BufTy).Contents (Elt F)) (x4 : (⟨S16x16, .f32⟩ : BufTy).Contents (Elt F)) (x5 : (⟨S16, .f32⟩ : BufTy).Contents (Elt F)) :
    val_main_v93 (F := F) x0 x1 x2 x3 x4 x5
      = Cert.KernelIdeal.Host.layer (val_main_v49 (F := F) x0 x1 x2 x3 x4) (val_main_v6 (F := F) x1) (val_main_v7 (F := F) x1) (val_main_v31 (F := F) x1) x5 := rfl

/-! ## The products -/

/-- x · W1 on the host is the plain sum. -/
theorem prod1_eq (x0 : (⟨S100000x256, .f32⟩ : BufTy).Contents (Elt Ideal)) (x2 : (⟨S256x16, .f32⟩ : BufTy).Contents (Elt Ideal)) :
    val_main_v4 (F := Ideal) x0 x2 = Cert.KernelIdeal.Proj1.prod x0 x2 :=
  funext fun i => (val_main_v4_apply x0 x2 i).trans rfl

/-- h1 · W2 on the host is the plain sum. -/
theorem prod2_eq (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x16, .f32⟩ : BufTy).Contents (Elt Ideal)) :
    val_main_v49 (F := Ideal) x0 x1 x2 x3 x4 = Cert.KernelIdeal.Proj2.prod (val_main_v48 (F := Ideal) x0 x1 x2 x3) x4 :=
  funext fun i => (val_main_v49_apply x0 x1 x2 x3 x4 i).trans rfl

/-! ## The classifier and log_softmax -/

section Classifier

variable (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x7, .f32⟩ : BufTy).Contents (Elt Ideal)) (x7 : (⟨S7, .f32⟩ : BufTy).Contents (Elt Ideal))

/-- The logits h2 · Wout + bout at (p, k). -/
theorem logits_apply (p : Fin 100000) (k : Fin 7) :
    val_main_v97 (F := Ideal) x0 x1 x2 x3 x4 x5 x6 x7 (ix2 p k)
      = Cert.KernelIdeal.Classify.logit (val_main_v93 (F := Ideal) x0 x1 x2 x3 x4 x5) x6 x7 p k := by
  rw [val_main_v97_apply, val_main_v94_apply, val_main_v96_apply, val_main_v95_apply]
  unfold Cert.KernelIdeal.Classify.logit
  show (∑ q : Fin 16, _) + _ = _
  have hl : ∀ q : Fin 16, lidx_main_v94 (ix2 p k) q = ix2 p q := fun q => funext fun a => Fin.ext (by match a with | ⟨0, _⟩ => rfl | ⟨1, _⟩ => rfl)
  have hr : ∀ q : Fin 16, ridx_main_v94 (ix2 p k) q = ix2 q k := fun q => funext fun a => Fin.ext (by match a with | ⟨0, _⟩ => rfl | ⟨1, _⟩ => rfl)
  have hb : idx_main_v95 (idx_main_v96 (ix2 p k)) = ix1 k := funext fun a => Fin.ext (by match a with | ⟨0, _⟩ => rfl)
  rw [hb]
  exact congrArg (· + x7 (ix1 k)) (Finset.sum_congr rfl fun q _ => by rw [hl q, hr q])

/-- The maximum of b with a fold of max that starts at b is the fold. -/
theorem fold_max_absorb (b : EReal) (f : Fin 7 → EReal) :
    FloatOps.maximumf (F := Ideal) (φ := .f32) b (Finset.univ.fold (FloatOps.maximumf (F := Ideal) (φ := .f32)) b f) = Finset.univ.fold max b f :=
  max_eq_right ((Finset.le_fold_max _).mpr (Or.inl le_rfl))

/-- A host max-reduction over the seven columns, started at −∞ and then maxed with −∞ once more, at row p: the fold of
    max from −∞ over the row (the outer maximum changes nothing: the fold starts there). -/
theorem hostRowMax (z : S100000x7.Idx → EReal) (p : Fin 100000) :
    FloatOps.maximumf (F := Ideal) (φ := .f32) (FloatOps.ofBits .f32 0xFF800000#32)
      (Host.reduce (FloatOps.maximumf (F := Ideal) (φ := .f32)) z (val_main_call4_cst (F := Ideal)) Gen.reducesTo_S100000x7_S100000_d1 Gen.h_S_ (ix1 p))
    = Finset.univ.fold max (Ideal.ofBits .f32 0xFF800000#32) (fun k' : Fin 7 => z (ix2 p k')) := by
  have hred : S100000x7.Reduces [1] S100000 := by decide
  rw [Host.reduce_eq_fold_single (FloatOps.maximumf (F := Ideal) (φ := .f32)) z (val_main_call4_cst (F := Ideal)) Gen.reducesTo_S100000x7_S100000_d1 hred Gen.h_S_ (ix1 p)]
  have hl : (z ∘ hred.lift (ix1 p)) = fun k' : Fin 7 => z (ix2 p k') :=
    funext fun k' => congrArg z (funext fun a => Fin.ext (by match a with | ⟨0, _⟩ => rfl | ⟨1, _⟩ => rfl))
  rw [hl, val_main_call4_cst_apply, Ideal.ofBits_def]
  exact fold_max_absorb _ _

/-- The row maximum as the reference takes it, at row p. -/
theorem rowMax_apply (p : Fin 100000) :
    val_main_call4_v2 (F := Ideal) x0 x1 x2 x3 x4 x5 x6 x7 (ix1 p)
      = Finset.univ.fold max (Ideal.ofBits .f32 0xFF800000#32) (fun k' : Fin 7 => val_main_v97 (F := Ideal) x0 x1 x2 x3 x4 x5 x6 x7 (ix2 p k')) := by
  rw [val_main_call4_v2_apply, val_main_call4_v1_apply, val_main_call4_cst_0_apply]
  unfold val_main_call4_v0
  exact hostRowMax _ p

/-- A logit minus its row's maximum. -/
theorem shifted_apply (p : Fin 100000) (k : Fin 7) :
    val_main_call4_v5 (F := Ideal) x0 x1 x2 x3 x4 x5 x6 x7 (ix2 p k)
      = val_main_v97 (F := Ideal) x0 x1 x2 x3 x4 x5 x6 x7 (ix2 p k)
        - Finset.univ.fold max (Ideal.ofBits .f32 0xFF800000#32) (fun k' : Fin 7 => val_main_v97 (F := Ideal) x0 x1 x2 x3 x4 x5 x6 x7 (ix2 p k')) := by
  rw [val_main_call4_v5_apply, val_main_call4_v4_apply, val_main_call4_v3_apply]
  have hi : idx_main_call4_v3 (idx_main_call4_v4 (ix2 p k)) = ix1 p := funext fun a => Fin.ext (by match a with | ⟨0, _⟩ => rfl)
  rw [hi, rowMax_apply]
  rfl

/-- The logarithm of the row's sum of exponentials of the shifted logits (the sum starts from the word 0). -/
theorem lse_apply (p : Fin 100000) (k : Fin 7) :
    val_main_call4_v10 (F := Ideal) x0 x1 x2 x3 x4 x5 x6 x7 (ix2 p k)
      = Ideal.log (∑ k' : Fin 7, Ideal.exp (val_main_call4_v5 (F := Ideal) x0 x1 x2 x3 x4 x5 x6 x7 (ix2 p k'))) := by
  rw [val_main_call4_v10_apply, val_main_call4_v9_apply, val_main_call4_v8_apply]
  have hi : idx_main_call4_v8 (idx_main_call4_v10 (ix2 p k)) = ix1 p := funext fun a => Fin.ext (by match a with | ⟨0, _⟩ => rfl)
  rw [hi, val_main_call4_v7_apply, val_main_call4_cst_1_apply]
  rw [Ideal.hostUnary_log_def, Ideal.ofBits_def, Ideal.ofBits_zero_f32, zero_add]
  refine congrArg Ideal.log (Finset.sum_congr rfl fun k' _ => ?_)
  have hk : idx_main_call4_v7 (ix1 p) k' = ix2 p k' := funext fun a => Fin.ext (by match a with | ⟨0, _⟩ => rfl | ⟨1, _⟩ => rfl)
  rw [hk, val_main_call4_v6_apply, Ideal.hostUnary_exp_def]

/-- The reference's result is the row log-softmax of the logits of its second layer's output. -/
theorem lsm_eq :
    val_main_v98 (F := Ideal) x0 x1 x2 x3 x4 x5 x6 x7
      = Cert.KernelIdeal.Classify.out (val_main_v93 (F := Ideal) x0 x1 x2 x3 x4 x5) x6 x7 := by
  funext i
  obtain ⟨p, k, rfl⟩ : ∃ (p : Fin 100000) (k : Fin 7), i = ix2 p k := ⟨i 0, i 1, eq_ix2 i⟩
  have hrow : (fun k' : Fin 7 => val_main_v97 (F := Ideal) x0 x1 x2 x3 x4 x5 x6 x7 (ix2 p k'))
      = Cert.KernelIdeal.Classify.logit (val_main_v93 (F := Ideal) x0 x1 x2 x3 x4 x5) x6 x7 p := funext fun k' => logits_apply x0 x1 x2 x3 x4 x5 x6 x7 p k'
  have hsum : (∑ k' : Fin 7, Ideal.exp (val_main_call4_v5 (F := Ideal) x0 x1 x2 x3 x4 x5 x6 x7 (ix2 p k')))
      = ∑ k' : Fin 7, Ideal.exp (Cert.KernelIdeal.Classify.logit (val_main_v93 (F := Ideal) x0 x1 x2 x3 x4 x5) x6 x7 p k'
          - Finset.univ.fold max (Ideal.ofBits .f32 0xFF800000#32) (Cert.KernelIdeal.Classify.logit (val_main_v93 (F := Ideal) x0 x1 x2 x3 x4 x5) x6 x7 p)) :=
    Finset.sum_congr rfl fun k' _ => by rw [shifted_apply, hrow, logits_apply]
  rw [val_main_v98_apply, lse_apply, shifted_apply, hsum, hrow, logits_apply]
  rfl

end Classifier

end Cert.ReferenceIdeal.Stages

end
-- ==== Proof.KernelValue.lean ====
/-
  The kernel's result as one function of the arguments. Reading @main from the launch to the return: the edge
  vectors and the normalisation are computed once; the first launch leaves x · W1; the host's first layer turns it
  into h1; the second launch leaves h1 · W2; the host's second layer turns it into h2; the third launch leaves the
  row log-softmax of h2 · Wout + bout. Stage by stage that is the reference's own chain, so the result is the
  reference's result term of the same arguments.
-/
import proofs.«148033_j91061896609816_1_alg».proof.Proof.KernelRun
import proofs.«148033_j91061896609816_1_alg».proof.Proof.HostChain
import proofs.«148033_j91061896609816_1_alg».proof.Proof.RefStages

set_option maxRecDepth 16384

noncomputable section

open Idealize.ShloMosaic Idealize.ShloMosaic.TcCoe Idealize.SL.Sem

namespace Cert.KernelIdeal.Result

open Cert.KernelIdeal Cert.KernelIdeal.Gen Cert.KernelIdeal.Host
open Cert.ReferenceIdeal.ReadP Cert.ReferenceIdeal.Stages

variable (m : (ℓ : Loc nD τ sig) → Buf (Elt Ideal) ℓ) (ρ : Dev nD → PrngReg)

/-- The arguments as launched, typed as arrays. -/
abbrev a0 (c : Dev nD) : (⟨S100000x256, .f32⟩ : BufTy).Contents (Elt Ideal) := m ((c.tc : Thread nD τ).loc main_arg0)
abbrev a1 (c : Dev nD) : (⟨S2x3200000, .i32⟩ : BufTy).Contents (Elt Ideal) := m ((c.tc : Thread nD τ).loc main_arg1)
abbrev a2 (c : Dev nD) : (⟨S256x16, .f32⟩ : BufTy).Contents (Elt Ideal) := m ((c.tc : Thread nD τ).loc main_arg2)
abbrev a3 (c : Dev nD) : (⟨S16, .f32⟩ : BufTy).Contents (Elt Ideal) := m ((c.tc : Thread nD τ).loc main_arg3)
abbrev a4 (c : Dev nD) : (⟨S16x16, .f32⟩ : BufTy).Contents (Elt Ideal) := m ((c.tc : Thread nD τ).loc main_arg4)
abbrev a5 (c : Dev nD) : (⟨S16, .f32⟩ : BufTy).Contents (Elt Ideal) := m ((c.tc : Thread nD τ).loc main_arg5)
abbrev a6 (c : Dev nD) : (⟨S16x7, .f32⟩ : BufTy).Contents (Elt Ideal) := m ((c.tc : Thread nD τ).loc main_arg6)
abbrev a7 (c : Dev nD) : (⟨S7, .f32⟩ : BufTy).Contents (Elt Ideal) := m ((c.tc : Thread nD τ).loc main_arg7)

/-- After the first launch: x · W1. -/
theorem xw1 (c : Dev nD) : W4 m ρ c (Proc.devRef .tc main_v31) = val_main_v4 (F := Ideal) (a0 m c) (a2 m c) := by
  refine ((W4_arr m ρ c 2).trans (Cert.KernelIdeal.Proj1.final (V3 m ρ) c)).trans ?_
  show Cert.KernelIdeal.Proj1.prod (W3 m ρ c (Proc.devRef .tc main_arg0)) (W3 m ρ c (Proc.devRef .tc main_arg2)) = _
  rw [W3_arg0, W3_arg2]
  exact (prod1_eq (a0 m c) (a2 m c)).symm

/-- Before the second launch: the first layer's output h1. -/
theorem h1 (c : Dev nD) : W6 m ρ c (Proc.devRef .tc main_v48) = val_main_v48 (F := Ideal) (a0 m c) (a1 m c) (a2 m c) (a3 m c) := by
  refine (layer1 m ρ c).trans ?_
  rw [xw1 m ρ c, W4_of_ne m ρ c main_v5 (by decide), src_eq, W4_of_ne m ρ c main_v6 (by decide), dst_eq,
    W4_of_ne m ρ c main_v30 (by decide), norm_eq, W4_of_ne m ρ c main_arg3 (by decide), W3_arg3]
  exact (layer1_eq (a0 m c) (a1 m c) (a2 m c) (a3 m c)).symm

/-- After the second launch: h1 · W2. -/
theorem xw2 (c : Dev nD) : W7 m ρ c (Proc.devRef .tc main_v49) = val_main_v49 (F := Ideal) (a0 m c) (a1 m c) (a2 m c) (a3 m c) (a4 m c) := by
  refine ((W7_arr m ρ c 2).trans (Cert.KernelIdeal.Proj2.final (V6 m ρ) c)).trans ?_
  show Cert.KernelIdeal.Proj2.prod (W6 m ρ c (Proc.devRef .tc main_v48)) (W6 m ρ c (Proc.devRef .tc main_arg4)) = _
  rw [h1 m ρ c, W6_arg4, W4_of_ne m ρ c main_arg4 (by decide), W3_arg4]
  exact (prod2_eq (a0 m c) (a1 m c) (a2 m c) (a3 m c) (a4 m c)).symm

/-- Before the third launch: the second layer's output h2. -/
theorem h2 (c : Dev nD) : W9 m ρ c (Proc.devRef .tc main_v66) = val_main_v93 (F := Ideal) (a0 m c) (a1 m c) (a2 m c) (a3 m c) (a4 m c) (a5 m c) := by
  refine (layer2 m ρ c).trans ?_
  rw [xw2 m ρ c,
    W7_of_ne m ρ c main_v5 (by decide), W6_v5, W4_of_ne m ρ c main_v5 (by decide), src_eq,
    W7_of_ne m ρ c main_v6 (by decide), W6_v6, W4_of_ne m ρ c main_v6 (by decide), dst_eq,
    W7_of_ne m ρ c main_v30 (by decide), W6_v30, W4_of_ne m ρ c main_v30 (by decide), norm_eq,
    W7_of_ne m ρ c main_arg5 (by decide), W6_arg5, W4_of_ne m ρ c main_arg5 (by decide), W3_arg5]
  exact (layer2_eq (a0 m c) (a1 m c) (a2 m c) (a3 m c) (a4 m c) (a5 m c)).symm

/-- After the third launch: the result, which is the reference's result term of the same arguments. -/
theorem result (c : Dev nD) :
    W10 m ρ c (Proc.devRef .tc main_v67)
      = val_main_v98 (F := Ideal) (a0 m c) (a1 m c) (a2 m c) (a3 m c) (a4 m c) (a5 m c) (a6 m c) (a7 m c) := by
  refine ((W10_arr m ρ c 3).trans (Cert.KernelIdeal.Classify.final (V9 m ρ) c)).trans ?_
  show Cert.KernelIdeal.Classify.out (W9 m ρ c (Proc.devRef .tc main_v66)) (W9 m ρ c (Proc.devRef .tc main_arg6)) (W9 m ρ c (Proc.devRef .tc main_arg7)) = _
  rw [h2 m ρ c,
    W9_arg6, W7_of_ne m ρ c main_arg6 (by decide), W6_arg6, W4_of_ne m ρ c main_arg6 (by decide), W3_arg6,
    W9_arg7, W7_of_ne m ρ c main_arg7 (by decide), W6_arg7, W4_of_ne m ρ c main_arg7 (by decide), W3_arg7]
  exact (lsm_eq (a0 m c) (a1 m c) (a2 m c) (a3 m c) (a4 m c) (a5 m c) (a6 m c) (a7 m c)).symm

/-- The kernel's run with its result named: every weakly fair execution ends with the result buffer at the reference's
    result term of the arguments, the arguments unchanged. -/
theorem run : θ_run defs (onTc (τ := τ) (main (F := Ideal))) ⟨m, fun _ => 0, ρ⟩ (fun r => ∀ c : Dev nD,
      r.2.mem ((c.tc : Thread nD τ).loc main_v67) = val_main_v98 (F := Ideal) (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result m ρ c), (h c).2⟩) (Cert.KernelIdeal.RunNamed.run_named (F := Ideal) m ρ)

end Cert.KernelIdeal.Result

end
-- ==== Proof.lean ====
/-
  A two-layer graph convolution with a linear classifier and log_softmax, as three row-blocked launches joined by host
  gathers and scatter-adds, against the same network written with jnp on the host.

  Over the extended reals the two programs are one function of the arguments. Each launch walks 100000 rows in twenty
  blocks of 5000 and is local to a row: the first two multiply a row block by a whole weight into a zero accumulator
  (the plain sum over the contracted coordinate, as the host's dot_general is; the narrowing to bf16 before the product
  is the identity), the third forms a row's seven logits the same way, adds the bias and takes the row's log-softmax
  with the same steps the host's log_softmax takes (maximum from −∞, shift, exp, sum from 0, log, subtract). Between the
  launches both programs apply the same host chain — gather the source rows, scale by d(s)^(-1/2) d(t)^(-1/2), scatter-add
  at the targets, add the bias, clamp at 0 — over the same edge vectors; the kernel computes the vectors and the
  normalisation once and the reference once per layer, the same terms. No step uses a law that fails at an
  infinity, so the precondition is not opened.

  The three frames are the generated ones (the reference's from its run); the ledger of the idealization is empty.
-/
import proofs.«148033_j91061896609816_1_alg».proof.Defs
import proofs.«148033_j91061896609816_1_alg».proof.Proof.Gen.Kernel
import proofs.«148033_j91061896609816_1_alg».proof.Proof.Gen.Kernel.Frame
import proofs.«148033_j91061896609816_1_alg».proof.Proof.Gen.KernelIdeal
import proofs.«148033_j91061896609816_1_alg».proof.Proof.Gen.KernelIdeal.Frame
import proofs.«148033_j91061896609816_1_alg».proof.Proof.Gen.ReferenceIdeal
import proofs.«148033_j91061896609816_1_alg».proof.Proof.Gen.Pre_finite_inputs
import proofs.«148033_j91061896609816_1_alg».proof.Proof.RefRun
import proofs.«148033_j91061896609816_1_alg».proof.Proof.RefRead
import proofs.«148033_j91061896609816_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with the result at the reference's result term of the arguments: the kernel's by its value read stage
    by stage, the reference's by its run; the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v98_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
